-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x1024 : Shape := ⟨3, ![32, 1024, 1024]⟩
abbrev S_ : Shape := ⟨0, ![]⟩

class Facts : Prop where
  bcast_S_S32x1024x1024 : S_.BroadcastsInDim S32x1024x1024 (![] : Fin 0 → Fin S32x1024x1024.rank)
  reducesTo_S32x1024x1024_S_d0_1_2 : S32x1024x1024.ReducesTo [0, 1, 2] S_
  h_S_ : 0 < S_.numel

variable [Facts]

def fn {F : FTy → Type} [FloatOps F] (main_arg0 : FVec F S32x1024x1024 .f32) : IVec S_ 1 :=
  let main_v0 : FVec F S32x1024x1024 .f32 := Host.absf main_arg0
  let main_cst : FVec F S_ .f32 := constant S_ .f32 0x7F800000#32
  let main_v1 : FVec F S32x1024x1024 .f32 := broadcastInDim S32x1024x1024 ![] bcast_S_S32x1024x1024 main_cst
  let main_v2 : IVec S32x1024x1024 1 := cmpf .olt main_v0 main_v1
  let main_c : IVec S_ 1 := constantI S_ 1 1#1
  let main_v3 : IVec S_ 1 := (fun x v => Host.reduce IntOp.andi x v reducesTo_S32x1024x1024_S_d0_1_2 h_S_) main_v2 main_c
  main_v3
-- ==== Kernel.lean ====
abbrev S32x1024x1024 : Shape := ⟨3, ![32, 1024, 1024]⟩
abbrev S1x1024x1024 : Shape := ⟨3, ![1, 1024, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 2
  | .vmem => 4
  | .smem => 0
  | _ => 0

abbrev bufTy : (tb : Table) → Fin (tcTables nBuf tb) → BufTy
  | .hbm, ⟨0, _⟩ => ⟨S32x1024x1024, .f32⟩
  | .hbm, ⟨1, _⟩ => ⟨S32x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | _, _ => ⟨S32x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024 : S1024x1024.Reduces [0] S1024
  shapeCasts_S1024_S1x1024 : S1024.ShapeCasts S1x1024
  broadcasts_S1x1024_S1024x1024 : S1x1024.Broadcasts S1024x1024
  reduces_S1024x1024_S1024_2 : S1024x1024.Reduces [1] S1024
  shapeCasts_S1024_S1024x1 : S1024.ShapeCasts S1024x1
  broadcasts_S1024x1_S1024x1024 : S1024x1.Broadcasts S1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S32x1024x1024.size a
  hwx0_0 : ∀ i : grid0.Coords, EltTy.bits .f32 = 32 ∨ (Rect.block (s := S32x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x1024x1024 : Shape := ⟨3, ![32, 1024, 1024]⟩
abbrev S_ : Shape := ⟨0, ![]⟩
abbrev S32x1024 : Shape := ⟨2, ![32, 1024]⟩
abbrev S32x1x1024 : Shape := ⟨3, ![32, 1, 1024]⟩
abbrev S32x1024x1 : Shape := ⟨3, ![32, 1024, 1]⟩

abbrev nBuf : Space → Nat
  | .hbm => 121
  | .vmem => 0
  | .smem => 0
  | _ => 0

abbrev bufTy : (tb : Table) → Fin (tcTables nBuf tb) → BufTy
  | .hbm, ⟨0, _⟩ => ⟨S32x1024x1024, .f32⟩
  | .hbm, ⟨1, _⟩ => ⟨S_, .f32⟩
  | .hbm, ⟨2, _⟩ => ⟨S32x1024, .f32⟩
  | .hbm, ⟨3, _⟩ => ⟨S32x1x1024, .f32⟩
  | .hbm, ⟨4, _⟩ => ⟨S_, .f32⟩
  | .hbm, ⟨5, _⟩ => ⟨S32x1x1024, .f32⟩
  | .hbm, ⟨6, _⟩ => ⟨S32x1x1024, .f32⟩
  | .hbm, ⟨7, _⟩ => ⟨S32x1024x1024, .f32⟩
  | .hbm, ⟨8, _⟩ => ⟨S32x1024x1024, .f32⟩
  | .hbm, ⟨9, _⟩ => ⟨S_, .f32⟩
  | .hbm, ⟨10, _⟩ => ⟨S32x1024, .f32⟩
  | .hbm, ⟨11, _⟩ => ⟨S32x1024x1, .f32⟩
  | .hbm, ⟨12, _⟩ => ⟨S_, .f32⟩
  | .hbm, ⟨13, _⟩ => ⟨S32x1024x1, .f32⟩
  | .hbm, ⟨14, _⟩ => ⟨S32x1024x1, .f32⟩
  | .hbm, ⟨15, _⟩ => ⟨S32x1024x1024, .f32⟩
  | .hbm, ⟨16, _⟩ => ⟨S32x1024x1024, .f32⟩
  | .hbm, ⟨17, _⟩ => ⟨S_, .f32⟩
  | .hbm, ⟨18, _⟩ => ⟨S32x1024, .f32⟩
  | .hbm, ⟨19, _⟩ => ⟨S32x1x1024, .f32⟩
  | .hbm, ⟨20, _⟩ => ⟨S_, .f32⟩
  | .hbm, ⟨21, _⟩ => ⟨S32x1x1024, .f32⟩
  | .hbm, ⟨22, _⟩ => ⟨S32x1x1024, .f32⟩
  | .hbm, ⟨23, _⟩ => ⟨S32x1024x1024, .f32⟩
  | .hbm, ⟨24, _⟩ => ⟨S32x1024x1024, .f32⟩
  | .hbm, ⟨25, _⟩ => ⟨S_, .f32⟩
  | .hbm, ⟨26, _⟩ => ⟨S32x1024, .f32⟩
  | .hbm, ⟨27, _⟩ => ⟨S32x1024x1, .f32⟩
  | .hbm, ⟨28, _⟩ => ⟨S_, .f32⟩
  | .hbm, ⟨29, _⟩ => ⟨S32x1024x1, .f32⟩
  | .hbm, ⟨30, _⟩ => ⟨S32x1024x1, .f32⟩
  | .hbm, ⟨31, _⟩ => ⟨S32x1024x1024, .f32⟩
  | .hbm, ⟨32, _⟩ => ⟨S32x1024x1024, .f32⟩
  | .hbm, ⟨33, _⟩ => ⟨S_, .f32⟩
  | .hbm, ⟨34, _⟩ => ⟨S32x1024, .f32⟩
  | .hbm, ⟨35, _⟩ => ⟨S32x1x1024, .f32⟩
  | .hbm, ⟨36, _⟩ => ⟨S_, .f32⟩
  | .hbm, ⟨37, _⟩ => ⟨S32x1x1024, .f32⟩
  | .hbm, ⟨38, _⟩ => ⟨S32x1x1024, .f32⟩
  | .hbm, ⟨39, _⟩ => ⟨S32x1024x1024, .f32⟩
  | .hbm, ⟨40, _⟩ => ⟨S32x1024x1024, .f32⟩
  | .hbm, ⟨41, _⟩ => ⟨S_, .f32⟩
  | .hbm, ⟨42, _⟩ => ⟨S32x1024, .f32⟩
  | .hbm, ⟨43, _⟩ => ⟨S32x1024x1, .f32⟩
  | .hbm, ⟨44, _⟩ => ⟨S_, .f32⟩
  | .hbm, ⟨45, _⟩ => ⟨S32x1024x1, .f32⟩
  | .hbm, ⟨46, _⟩ => ⟨S32x1024x1, .f32⟩
  | .hbm, ⟨47, _⟩ => ⟨S32x1024x1024, .f32⟩
  | .hbm, ⟨48, _⟩ => ⟨S32x1024x1024, .f32⟩
  | .hbm, ⟨49, _⟩ => ⟨S_, .f32⟩
  | .hbm, ⟨50, _⟩ => ⟨S32x1024, .f32⟩
  | .hbm, ⟨51, _⟩ => ⟨S32x1x1024, .f32⟩
  | .hbm, ⟨52, _⟩ => ⟨S_, .f32⟩
  | .hbm, ⟨53, _⟩ => ⟨S32x1x1024, .f32⟩
  | .hbm, ⟨54, _⟩ => ⟨S32x1x1024, .f32⟩
  | .hbm, ⟨55, _⟩ => ⟨S32x1024x1024, .f32⟩
  | .hbm, ⟨56, _⟩ => ⟨S32x1024x1024, .f32⟩
  | .hbm, ⟨57, _⟩ => ⟨S_, .f32⟩
  | .hbm, ⟨58, _⟩ => ⟨S32x1024, .f32⟩
  | .hbm, ⟨59, _⟩ => ⟨S32x1024x1, .f32⟩
  | .hbm, ⟨60, _⟩ => ⟨S_, .f32⟩
  | .hbm, ⟨61, _⟩ => ⟨S32x1024x1, .f32⟩
  | .hbm, ⟨62, _⟩ => ⟨S32x1024x1, .f32⟩
  | .hbm, ⟨63, _⟩ => ⟨S32x1024x1024, .f32⟩
  | .hbm, ⟨64, _⟩ => ⟨S32x1024x1024, .f32⟩
  | .hbm, ⟨65, _⟩ => ⟨S_, .f32⟩
  | .hbm, ⟨66, _⟩ => ⟨S32x1024, .f32⟩
  | .hbm, ⟨67, _⟩ => ⟨S32x1x1024, .f32⟩
  | .hbm, ⟨68, _⟩ => ⟨S_, .f32⟩
  | .hbm, ⟨69, _⟩ => ⟨S32x1x1024, .f32⟩
  | .hbm, ⟨70, _⟩ => ⟨S32x1x1024, .f32⟩
  | .hbm, ⟨71, _⟩ => ⟨S32x1024x1024, .f32⟩
  | .hbm, ⟨72, _⟩ => ⟨S32x1024x1024, .f32⟩
  | .hbm, ⟨73, _⟩ => ⟨S_, .f32⟩
  | .hbm, ⟨74, _⟩ => ⟨S32x1024, .f32⟩
  | .hbm, ⟨75, _⟩ => ⟨S32x1024x1, .f32⟩
  | .hbm, ⟨76, _⟩ => ⟨S_, .f32⟩
  | .hbm, ⟨77, _⟩ => ⟨S32x1024x1, .f32⟩
  | .hbm, ⟨78, _⟩ => ⟨S32x1024x1, .f32⟩
  | .hbm, ⟨79, _⟩ => ⟨S32x1024x1024, .f32⟩
  | .hbm, ⟨80, _⟩ => ⟨S32x1024x1024, .f32⟩
  | .hbm, ⟨81, _⟩ => ⟨S_, .f32⟩
  | .hbm, ⟨82, _⟩ => ⟨S32x1024, .f32⟩
  | .hbm, ⟨83, _⟩ => ⟨S32x1x1024, .f32⟩
  | .hbm, ⟨84, _⟩ => ⟨S_, .f32⟩
  | .hbm, ⟨85, _⟩ => ⟨S32x1x1024, .f32⟩
  | .hbm, ⟨86, _⟩ => ⟨S32x1x1024, .f32⟩
  | .hbm, ⟨87, _⟩ => ⟨S32x1024x1024, .f32⟩
  | .hbm, ⟨88, _⟩ => ⟨S32x1024x1024, .f32⟩
  | .hbm, ⟨89, _⟩ => ⟨S_, .f32⟩
  | .hbm, ⟨90, _⟩ => ⟨S32x1024, .f32⟩
  | .hbm, ⟨91, _⟩ => ⟨S32x1024x1, .f32⟩
  | .hbm, ⟨92, _⟩ => ⟨S_, .f32⟩
  | .hbm, ⟨93, _⟩ => ⟨S32x1024x1, .f32⟩
  | .hbm, ⟨94, _⟩ => ⟨S32x1024x1, .f32⟩
  | .hbm, ⟨95, _⟩ => ⟨S32x1024x1024, .f32⟩
  | .hbm, ⟨96, _⟩ => ⟨S32x1024x1024, .f32⟩
  | .hbm, ⟨97, _⟩ => ⟨S_, .f32⟩
  | .hbm, ⟨98, _⟩ => ⟨S32x1024, .f32⟩
  | .hbm, ⟨99, _⟩ => ⟨S32x1x1024, .f32⟩
  | .hbm, ⟨100, _⟩ => ⟨S_, .f32⟩
  | .hbm, ⟨101, _⟩ => ⟨S32x1x1024, .f32⟩
  | .hbm, ⟨102, _⟩ => ⟨S32x1x1024, .f32⟩
  | .hbm, ⟨103, _⟩ => ⟨S32x1024x1024, .f32⟩
  | .hbm, ⟨104, _⟩ => ⟨S32x1024x1024, .f32⟩
  | .hbm, ⟨105, _⟩ => ⟨S_, .f32⟩
  | .hbm, ⟨106, _⟩ => ⟨S32x1024, .f32⟩
  | .hbm, ⟨107, _⟩ => ⟨S32x1024x1, .f32⟩
  | .hbm, ⟨108, _⟩ => ⟨S_, .f32⟩
  | .hbm, ⟨109, _⟩ => ⟨S32x1024x1, .f32⟩
  | .hbm, ⟨110, _⟩ => ⟨S32x1024x1, .f32⟩
  | .hbm, ⟨111, _⟩ => ⟨S32x1024x1024, .f32⟩
  | .hbm, ⟨112, _⟩ => ⟨S32x1024x1024, .f32⟩
  | .hbm, ⟨113, _⟩ => ⟨S_, .f32⟩
  | .hbm, ⟨114, _⟩ => ⟨S32x1024, .f32⟩
  | .hbm, ⟨115, _⟩ => ⟨S32x1x1024, .f32⟩
  | .hbm, ⟨116, _⟩ => ⟨S_, .f32⟩
  | .hbm, ⟨117, _⟩ => ⟨S32x1x1024, .f32⟩
  | .hbm, ⟨118, _⟩ => ⟨S32x1x1024, .f32⟩
  | .hbm, ⟨119, _⟩ => ⟨S32x1024x1024, .f32⟩
  | .hbm, ⟨120, _⟩ => ⟨S32x1024x1024, .f32⟩
  | _, _ => ⟨S32x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_v18 : Ref sig .tc := ⟨.hbm, 26, rfl⟩
abbrev main_v19 : Ref sig .tc := ⟨.hbm, 27, rfl⟩
abbrev main_cst_6 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_7 : Ref sig .tc := ⟨.hbm, 33, rfl⟩
abbrev main_v24 : Ref sig .tc := ⟨.hbm, 34, rfl⟩
abbrev main_v25 : Ref sig .tc := ⟨.hbm, 35, rfl⟩
abbrev main_cst_8 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_cst_10 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_11 : Ref sig .tc := ⟨.hbm, 49, rfl⟩
abbrev main_v36 : Ref sig .tc := ⟨.hbm, 50, rfl⟩
abbrev main_v37 : Ref sig .tc := ⟨.hbm, 51, rfl⟩
abbrev main_cst_12 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_13 : Ref sig .tc := ⟨.hbm, 57, rfl⟩
abbrev main_v42 : Ref sig .tc := ⟨.hbm, 58, rfl⟩
abbrev main_v43 : Ref sig .tc := ⟨.hbm, 59, rfl⟩
abbrev main_cst_14 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_15 : Ref sig .tc := ⟨.hbm, 65, rfl⟩
abbrev main_v48 : Ref sig .tc := ⟨.hbm, 66, rfl⟩
abbrev main_v49 : Ref sig .tc := ⟨.hbm, 67, rfl⟩
abbrev main_cst_16 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_17 : Ref sig .tc := ⟨.hbm, 73, rfl⟩
abbrev main_v54 : Ref sig .tc := ⟨.hbm, 74, rfl⟩
abbrev main_v55 : Ref sig .tc := ⟨.hbm, 75, rfl⟩
abbrev main_cst_18 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_19 : Ref sig .tc := ⟨.hbm, 81, rfl⟩
abbrev main_v60 : Ref sig .tc := ⟨.hbm, 82, rfl⟩
abbrev main_v61 : Ref sig .tc := ⟨.hbm, 83, rfl⟩
abbrev main_cst_20 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_21 : Ref sig .tc := ⟨.hbm, 89, rfl⟩
abbrev main_v66 : Ref sig .tc := ⟨.hbm, 90, rfl⟩
abbrev main_v67 : Ref sig .tc := ⟨.hbm, 91, rfl⟩
abbrev main_cst_22 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_23 : Ref sig .tc := ⟨.hbm, 97, rfl⟩
abbrev main_v72 : Ref sig .tc := ⟨.hbm, 98, rfl⟩
abbrev main_v73 : Ref sig .tc := ⟨.hbm, 99, rfl⟩
abbrev main_cst_24 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_25 : Ref sig .tc := ⟨.hbm, 105, rfl⟩
abbrev main_v78 : Ref sig .tc := ⟨.hbm, 106, rfl⟩
abbrev main_v79 : Ref sig .tc := ⟨.hbm, 107, rfl⟩
abbrev main_cst_26 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_27 : Ref sig .tc := ⟨.hbm, 113, rfl⟩
abbrev main_v84 : Ref sig .tc := ⟨.hbm, 114, rfl⟩
abbrev main_v85 : Ref sig .tc := ⟨.hbm, 115, rfl⟩
abbrev main_cst_28 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  reducesTo_S32x1024x1024_S32x1024_d1 : S32x1024x1024.ReducesTo [1] S32x1024
  h_S_ : 0 < S_.numel
  bcast_S32x1024_S32x1x1024_0_2 : S32x1024.BroadcastsInDim S32x1x1024 (![0, 2] : Fin 2 → Fin S32x1x1024.rank)
  bcast_S_S32x1x1024 : S_.BroadcastsInDim S32x1x1024 (![] : Fin 0 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x1024_0_1_2 : S32x1024x1.BroadcastsInDim S32x1024x1024 (![0, 1, 2] : Fin 3 → Fin S32x1024x1024.rank)

variable [Facts₀]

class Facts : Prop extends Facts₀ where

variable [Facts]
-- ==== Proof.Spec.lean ====
/-
  Sinkhorn normalisation of a stack of square matrices, as one function of the stack, index by index.

  A stack is an array `[B, 1024, 1024]`. One COLUMN step divides every entry by its column's sum plus ε (the sum runs
  over the middle coordinate); one ROW step divides every entry by its row's sum plus ε (the sum runs over the last
  coordinate). Fifteen steps alternate, beginning and ending with a column step. Every step treats the members of the
  stack separately, so taking member `t` of the stack commutes with each step and hence with all fifteen: what the
  steps leave in member `t` is the fifteen steps of the one-member stack that holds member `t` alone.

  The quotient is the extended reals' `Ideal.div`, the sums are finite sums in the commutative monoid of the extended
  reals, and ε is whatever extended real the word `0x38D1B717` denotes: nothing here depends on its value.
-/
import Idealize.ShloMosaic.PureOps.Ideal
import Idealize.ShloMosaic.Lib.ValueIdx

noncomputable section

namespace Cert.Sinkhorn

open Idealize.ShloMosaic Idealize.ShloMosaic.ValueIdx

/-- A stack of `B` matrices of 1024 rows and 1024 columns. -/
abbrev Stack (B : Nat) : Shape := ⟨3, ![B, 1024, 1024]⟩

/-- The stabiliser added to every denominator. -/
def eps : EReal := Ideal.ofBits .f32 0x38D1B717#32

/-- Every entry over (its column's sum + ε): the sum is over the row coordinate. -/
def colStep {B : Nat} (X : (Stack B).Idx → EReal) : (Stack B).Idx → EReal :=
  fun i => Ideal.div (X i) ((∑ k : Fin 1024, X (ix3 (i 0) k (i 2))) + eps)

/-- Every entry over (its row's sum + ε): the sum is over the column coordinate. -/
def rowStep {B : Nat} (X : (Stack B).Idx → EReal) : (Stack B).Idx → EReal :=
  fun i => Ideal.div (X i) ((∑ k : Fin 1024, X (ix3 (i 0) (i 1) k)) + eps)

theorem colStep_apply {B : Nat} (X : (Stack B).Idx → EReal) (b : Fin B) (p q : Fin 1024) :
    colStep X (ix3 b p q) = Ideal.div (X (ix3 b p q)) ((∑ k : Fin 1024, X (ix3 b k q)) + eps) := rfl

theorem rowStep_apply {B : Nat} (X : (Stack B).Idx → EReal) (b : Fin B) (p q : Fin 1024) :
    rowStep X (ix3 b p q) = Ideal.div (X (ix3 b p q)) ((∑ k : Fin 1024, X (ix3 b p k)) + eps) := rfl

/-- The fifteen alternating steps, a column step first and last. -/
def sink {B : Nat} (X : (Stack B).Idx → EReal) : (Stack B).Idx → EReal :=
  colStep (rowStep (colStep (rowStep (colStep (rowStep (colStep (rowStep (colStep (rowStep (colStep (rowStep (colStep
    (rowStep (colStep X))))))))))))))

/-- Member `t` of a stack, as a stack of one. -/
def member {B : Nat} (t : Fin B) (X : (Stack B).Idx → EReal) : (Stack 1).Idx → EReal :=
  fun y => X (ix3 t (y 1) (y 2))

theorem member_apply {B : Nat} (t : Fin B) (X : (Stack B).Idx → EReal) (u : Fin 1) (p q : Fin 1024) :
    member t X (ix3 u p q) = X (ix3 t p q) := rfl

/-- A column step acts on each member by itself. -/
theorem member_colStep {B : Nat} (t : Fin B) (X : (Stack B).Idx → EReal) :
    member t (colStep X) = colStep (member t X) := rfl

/-- A row step acts on each member by itself. -/
theorem member_rowStep {B : Nat} (t : Fin B) (X : (Stack B).Idx → EReal) :
    member t (rowStep X) = rowStep (member t X) := rfl

/-- So do the fifteen steps. -/
theorem member_sink {B : Nat} (t : Fin B) (X : (Stack B).Idx → EReal) :
    member t (sink X) = sink (member t X) := by
  unfold sink
  simp only [member_colStep, member_rowStep]

end Cert.Sinkhorn

end
-- ==== Proof.LibColumn.lean ====
/-
  A vector of length `a` laid out as a column `[a, 1]`, read at an index.

  Two host operations produce the same column from a vector `x`: a reshape `[a] → [a, 1]` (row-major position
  `i * 1 + 0 = i`) and a `broadcast_in_dim` along axis `0` into `[a, 1]` (the new axis has extent one, so nothing is
  repeated). Both read `x i` at `(i, u)`, whatever the unit coordinate `u`; hence the two columns are equal as arrays.
  A column broadcast along its unit axis to `[a, b]` (the kernel-side `vector.broadcast`, the host's
  `broadcast_in_dim` along both axes) reads the column at `(i, 0)`.
-/
import Idealize.ShloMosaic.Lib.ValueIdx
import Idealize.ShloMosaic.Lib.Pipeline.Value

namespace Idealize.ShloMosaic.Column

open Idealize.ShloMosaic Idealize.ShloMosaic.ValueIdx

variable {α : Type}

/-- The reshape `[a] → [a, 1]` at `(i, u)` is the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The `broadcast_in_dim` of a vector along axis `0` into `[a, 1]`, at `(i, u)`, is the vector at `i`
    (for `a ≠ 1`; the extent-one case reads index `0`, which is again `i`). -/
theorem broadcastInDim_a_a1_apply {a : ℕ} (x : (⟨1, ![a]⟩ : Shape).Idx → α)
    (dims : Fin 1 → Fin 2) (hd : dims 0 = 0)
    (h : (⟨1, ![a]⟩ : Shape).BroadcastsInDim ⟨2, ![a, 1]⟩ dims)
    (i : Fin a) (u : Fin 1) : broadcastInDim ⟨2, ![a, 1]⟩ dims h x (ix2 i u) = x (ix1 i) := by
  refine broadcastInDim_apply dims h x (ix2 i u) (ix1 i) ?_
  intro d
  match d with
  | ⟨0, _⟩ =>
    show i.val = if a = 1 then 0 else ((ix2 i u : (⟨2, ![a, 1]⟩ : Shape).Idx) (dims 0)).val
    rw [hd]
    by_cases h1 : a = 1
    · rw [if_pos h1]; have := i.isLt; omega
    · rw [if_neg h1]

/-- So the two columns are one array. -/
theorem shapeCast_eq_broadcastInDim {a : ℕ} (x : (⟨1, ![a]⟩ : Shape).Idx → α)
    (hs : (⟨1, ![a]⟩ : Shape).ShapeCasts ⟨2, ![a, 1]⟩)
    (dims : Fin 1 → Fin 2) (hd : dims 0 = 0)
    (hb : (⟨1, ![a]⟩ : Shape).BroadcastsInDim ⟨2, ![a, 1]⟩ dims) :
    shapeCast ⟨2, ![a, 1]⟩ x hs = broadcastInDim ⟨2, ![a, 1]⟩ dims hb x := by
  funext j
  obtain ⟨p, q, rfl⟩ : ∃ (p : Fin a) (q : Fin 1), j = ix2 p q := ⟨j 0, j 1, eq_ix2 j⟩
  rw [shapeCast_a_a1_apply, broadcastInDim_a_a1_apply x dims hd]

/-- A column `[a, 1]` broadcast to `[a, b]` (a kernel's `vector.broadcast`) reads, at `(i, j)`, the column at `(i, 0)`
    (for `a ≠ 1`). -/
theorem broadcastTo_a1_ab_apply {a b : ℕ} (ha : a ≠ 1) (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) := by
  refine broadcastTo_apply x h (ix2 i j) (ix2 i (0 : Fin 1)) ?_
  intro d
  match d with
  | ⟨0, _⟩ => show i.val = if a = 1 then 0 else i.val; rw [if_neg ha]
  | ⟨1, _⟩ => show 0 = if (1 : ℕ) = 1 then 0 else j.val; rw [if_pos rfl]

/-- The host's `broadcast_in_dim` of a column `[a, 1]` along both axes into `[a, b]` reads the same (for `a ≠ 1`). -/
theorem broadcastInDim_a1_ab_apply {a b : ℕ} (ha : a ≠ 1) (x : (⟨2, ![a, 1]⟩ : Shape).Idx → α)
    (dims : Fin 2 → Fin 2) (hd0 : dims 0 = 0) (hd1 : dims 1 = 1)
    (h : (⟨2, ![a, 1]⟩ : Shape).BroadcastsInDim ⟨2, ![a, b]⟩ dims) (i : Fin a) (j : Fin b) :
    broadcastInDim ⟨2, ![a, b]⟩ dims h x (ix2 i j) = x (ix2 i (0 : Fin 1)) := by
  refine broadcastInDim_apply dims h x (ix2 i j) (ix2 i (0 : Fin 1)) ?_
  intro d
  match d with
  | ⟨0, _⟩ =>
    show i.val = if a = 1 then 0 else ((ix2 i j : (⟨2, ![a, b]⟩ : Shape).Idx) (dims 0)).val
    rw [hd0, if_neg ha]
  | ⟨1, _⟩ =>
    show 0 = if (1 : ℕ) = 1 then 0 else ((ix2 i j : (⟨2, ![a, b]⟩ : Shape).Idx) (dims 1)).val
    rw [if_pos rfl]

end Idealize.ShloMosaic.Column
-- ==== Proof.KernelBody.lean ====
/-
  What the kernel body leaves in its output block: fifteen normalisation steps of the input block.

  The body copies the input block into the output buffer and then, fifteen times, loads the whole buffer, divides it
  by (a sum over one axis + ε) and stores it whole. Every store covers the whole buffer, so the buffer ends holding
  the last store's value, and every load reads the value of the store before it. The value of the last store is
  therefore the fifteen step functions composed on the input block. Five of the fifteen steps are cut in two by the
  printed program's statement windows (the loaded block and its axis sum are carried from one window to the next);
  glued back they are the same two step functions as the others.

  At the extended reals a step over axis 0 of the 1024×1024 matrix is the column step of the one-member stack, a step
  over axis 1 the row step (Proof/Spec.lean), and the copy is the identity; so the block ends at `sink` of the input block.
-/
import proofs.«105325_j77429670412676_1_alg».proof.Proof.Gen.KernelIdeal.Frame
import proofs.«105325_j77429670412676_1_alg».proof.Proof.Spec
import proofs.«105325_j77429670412676_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.Tactic Idealize.ShloMosaic.ValueIdx

variable {F : FTy → Type} [FloatOps F]

/-! ## The steps cut by a statement window, glued back -/

theorem pay7_eq (x : Vec F S1x1024x1024 .f32) : k0_pay7 (k0_pay5 x) (k0_pay6 x) = k0_pay3 x := rfl
theorem pay8_eq (x : Vec F S1x1024x1024 .f32) : k0_pay8 x = k0_pay4 x := rfl
theorem pay9_eq (x : Vec F S1x1024x1024 .f32) : k0_pay9 x = k0_pay3 x := rfl
theorem pay12_eq (x : Vec F S1x1024x1024 .f32) : k0_pay12 (k0_pay10 x) (k0_pay11 x) = k0_pay4 x := rfl
theorem pay13_eq (x : Vec F S1x1024x1024 .f32) : k0_pay13 x = k0_pay3 x := rfl
theorem pay14_eq (x : Vec F S1x1024x1024 .f32) : k0_pay14 x = k0_pay4 x := rfl
theorem pay17_eq (x : Vec F S1x1024x1024 .f32) : k0_pay17 (k0_pay15 x) (k0_pay16 x) = k0_pay3 x := rfl
theorem pay18_eq (x : Vec F S1x1024x1024 .f32) : k0_pay18 x = k0_pay4 x := rfl
theorem pay19_eq (x : Vec F S1x1024x1024 .f32) : k0_pay19 x = k0_pay3 x := rfl
theorem pay22_eq (x : Vec F S1x1024x1024 .f32) : k0_pay22 (k0_pay20 x) (k0_pay21 x) = k0_pay4 x := rfl
theorem pay23_eq (x : Vec F S1x1024x1024 .f32) : k0_pay23 x = k0_pay3 x := rfl
theorem pay24_eq (x : Vec F S1x1024x1024 .f32) : k0_pay24 x = k0_pay4 x := rfl
theorem pay1_eq (x : Vec F S1x1024x1024 .f32) : k0_pay1 (k0_pay25 x) (k0_pay26 x) = k0_pay3 x := rfl

/-! ## The output block after the body -/

theorem hz3 : (![0, 0, 0] : Fin 3 → Nat) = fun _ => 0 := funext fun a => by fin_cases a <;> rfl

/-- The fifteen steps as the body applies them to the copied block: over axis 0 and axis 1 in turn. -/
def steps (x : Vec F S1x1024x1024 .f32) : Vec F S1x1024x1024 .f32 :=
  k0_pay3 (k0_pay4 (k0_pay3 (k0_pay4 (k0_pay3 (k0_pay4 (k0_pay3 (k0_pay4 (k0_pay3 (k0_pay4 (k0_pay3 (k0_pay4 (k0_pay3
    (k0_pay4 (k0_pay3 (k0_pay2 x)))))))))))))))

/-- The output buffer ends at the last store's value: every load reads the store before it. -/
theorem out_eq (c : Dev nD) (i : grid0.Coords) (arg1 : Memref sig .tc .vmem S1x1024x1024 .f32) (harg1 : arg1.IsWhole)
    (arg2 : Memref sig .tc .vmem S1x1024x1024 .f32) (harg2 : arg2.IsWhole) (x0 : Vec F S1x1024x1024 .f32) :
    out0_A_1 c i arg1 harg1 arg2 harg2 x0 = steps x0 := by
  unfold out0_A_1
  rw [View.read_writes_eq_canon _ _ _ (cover0_A_1 c i arg1 harg1 arg2 harg2 x0)]
  unfold kernelRun0_A
  dsimp only
  rw [View.canon_cons_unit_zero hz3]
  sl_unfold_run_names
  simp only [View.readCov_cons_toLoadRect, View.readAt_eq_ld, harg1.read_unread, View.ld_unit_zero (S := S1x1024x1024) hz3]
  simp only [pay7_eq, pay8_eq, pay9_eq, pay12_eq, pay13_eq, pay14_eq, pay17_eq, pay18_eq, pay19_eq, pay22_eq, pay23_eq,
    pay24_eq, pay1_eq]
  rfl

/-! ## The steps at the extended reals -/

/-- The kernel's sum over axis 0 of a 1024×1024 matrix, at column `q`: the sum of that column. -/
theorem sum_axis0 (v : FVec Ideal (⟨2, ![1024, 1024]⟩ : Shape) .f32) (h : Shape.Reduces (⟨2, ![1024, 1024]⟩ : Shape) [0] ⟨1, ![1024]⟩)
    (hφ : FKind.Formats .f32) (hacc : (0x00000000#32 : BitVec 32) = FKind.add.neutral .f32 hφ) (q : Fin 1024) :
    multiReduction .add [0] ⟨1, ![1024]⟩ v 0x00000000#32 h hφ hacc (ix1 q) = ∑ k : Fin 1024, v (ix2 k q) := by
  refine (Ideal.multiReduction_add_single v _ h hφ hacc (ix1 q)).trans ?_
  refine Finset.sum_congr rfl fun k _ => congrArg v ?_
  funext d; apply Fin.ext
  match d with
  | ⟨0, _⟩ => rfl
  | ⟨1, _⟩ => rfl

/-- The kernel's sum over axis 1 of a 1024×1024 matrix, at row `p`: the sum of that row. -/
theorem sum_axis1 (v : FVec Ideal (⟨2, ![1024, 1024]⟩ : Shape) .f32) (h : Shape.Reduces (⟨2, ![1024, 1024]⟩ : Shape) [1] ⟨1, ![1024]⟩)
    (hφ : FKind.Formats .f32) (hacc : (0x00000000#32 : BitVec 32) = FKind.add.neutral .f32 hφ) (p : Fin 1024) :
    multiReduction .add [1] ⟨1, ![1024]⟩ v 0x00000000#32 h hφ hacc (ix1 p) = ∑ k : Fin 1024, v (ix2 p k) := by
  refine (Ideal.multiReduction_add_single v _ h hφ hacc (ix1 p)).trans ?_
  refine Finset.sum_congr rfl fun k _ => congrArg v ?_
  funext d; apply Fin.ext
  match d with
  | ⟨0, _⟩ => rfl
  | ⟨1, _⟩ => rfl

/-- The copy is the identity: a block cast to a matrix and back. -/
theorem pay2_eq (x : Vec F S1x1024x1024 .f32) : k0_pay2 x = x := by
  unfold k0_pay2
  exact shapeCast_shapeCast x _ _

/-- A step over axis 0 is the column step of the one-member stack. -/
theorem pay3_ideal (x : Vec Ideal S1x1024x1024 .f32) : k0_pay3 (F := Ideal) x = Sinkhorn.colStep x := by
  funext j
  obtain ⟨u, p, q, rfl⟩ : ∃ (u : Fin 1) (p q : Fin 1024), j = ix3 u p q := ⟨j 0, j 1, j 2, eq_ix3 j⟩
  obtain rfl : u = 0 := Subsingleton.elim _ _
  refine Eq.trans ?_ (Sinkhorn.colStep_apply x 0 p q).symm
  unfold k0_pay3
  refine (shapeCast_ab_1ab_apply _ _ 0 p q).trans ?_
  show Ideal.div _ _ = Ideal.div _ _
  refine congrArg₂ Ideal.div (shapeCast_1ab_ab_apply x _ p q) ?_
  refine (broadcastTo_1b_ab_apply _ _ p q).trans ?_
  show _ + _ = _ + _
  refine congrArg₂ (· + ·) ?_ rfl
  refine (shapeCast_a_1a_apply _ _ 0 q).trans ?_
  refine (sum_axis0 _ _ _ _ q).trans ?_
  exact Finset.sum_congr rfl fun k _ => shapeCast_1ab_ab_apply x _ k q

/-- A step over axis 1 is the row step of the one-member stack. -/
theorem pay4_ideal (x : Vec Ideal S1x1024x1024 .f32) : k0_pay4 (F := Ideal) x = Sinkhorn.rowStep x := by
  funext j
  obtain ⟨u, p, q, rfl⟩ : ∃ (u : Fin 1) (p q : Fin 1024), j = ix3 u p q := ⟨j 0, j 1, j 2, eq_ix3 j⟩
  obtain rfl : u = 0 := Subsingleton.elim _ _
  refine Eq.trans ?_ (Sinkhorn.rowStep_apply x 0 p q).symm
  unfold k0_pay4
  refine (shapeCast_ab_1ab_apply _ _ 0 p q).trans ?_
  show Ideal.div _ _ = Ideal.div _ _
  refine congrArg₂ Ideal.div (shapeCast_1ab_ab_apply x _ p q) ?_
  refine (Column.broadcastTo_a1_ab_apply (by decide) _ _ p q).trans ?_
  show _ + _ = _ + _
  refine congrArg₂ (· + ·) ?_ rfl
  refine (Column.shapeCast_a_a1_apply _ _ p 0).trans ?_
  refine (sum_axis1 _ _ _ _ p).trans ?_
  exact Finset.sum_congr rfl fun k _ => shapeCast_1ab_ab_apply x _ p k

/-- So the fifteen steps of the body are `sink` of the block. -/
theorem steps_ideal (x : Vec Ideal S1x1024x1024 .f32) : steps (F := Ideal) x = Sinkhorn.sink x := by
  unfold steps Sinkhorn.sink
  simp only [pay2_eq, pay3_ideal, pay4_ideal]

end Cert.KernelIdeal.Body

end
-- ==== Proof.KernelValue.lean ====
/-
  The kernel's result array: `sink` of the argument stack.

  The grid has one point per member of the stack. At point `t` the input window stages member `t` of the argument and
  the output window writes its block back over member `t` of the result (both index maps are `t ↦ (t, 0, 0)` with
  blocks `[1, 1024, 1024]`). The body leaves `sink` of the staged member in the output block (Proof/KernelBody.lean), and
  `sink` acts on each member of a stack by itself (Proof/Spec.lean), so what point `t` writes back is member `t` of
  `sink` of the whole argument. The 32 blocks cover the result array, which therefore ends holding `sink` of the
  argument.
-/
import proofs.«105325_j77429670412676_1_alg».proof.Proof.Gen.KernelIdeal.Value
import proofs.«105325_j77429670412676_1_alg».proof.Proof.KernelBody

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The argument stack as the region finds it. -/
abbrev stack (c : Dev nD) : FVec Ideal S32x1024x1024 .f32 := V m c main_arg0

/-- A grid point as the number of the member it works on. -/
abbrev mem (t : Fin cfg0.N) : Fin 32 := ⟨t.val, t.isLt⟩

/-- Both index maps send point `t` to block `(t, 0, 0)` (decided over the 32 points). -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- The block the input window stages at point `t` is member `t` of the argument. -/
theorem iblk_eq (c : Dev nD) (t : Fin cfg0.N) :
    (iblk m c 0 t : Vec Ideal S1x1024x1024 .f32) = Sinkhorn.member (mem t) (stack m c) := by
  obtain ⟨e0, e1, e2, -, -, -⟩ := idx_facts t
  funext y
  show V m c main_arg0 (((cfg0.win 0).blk t).view.emb y) = V m c main_arg0 (ix3 (mem t) (y 1) (y 2))
  refine congrArg (V m c main_arg0) ?_
  funext a; apply Fin.ext
  match a with
  | ⟨0, _⟩ =>
    show win0_0.index t (0 : Fin 3) * 1 + 1 * (y 0).val = t.val
    have hy : (y 0).val < 1 := (y 0).isLt
    omega
  | ⟨1, _⟩ => show win0_0.index t (1 : Fin 3) * 1024 + 1 * (y 1).val = (y 1).val; omega
  | ⟨2, _⟩ => show win0_0.index t (2 : Fin 3) * 1024 + 1 * (y 2).val = (y 2).val; omega

/-- What point `t` writes back is block `t` of `sink` of the argument. -/
theorem flushed_eq (c : Dev nD) (t : Fin cfg0.N) :
    (dats m 0 c).flushed 1 t = ((cfg0.win 1).blk t).view.read (Elt Ideal) (Sinkhorn.sink (stack m c)) := by
  rw [Value.flushed1_A, Body.out_eq, Body.steps_ideal, iblk_eq, ← Sinkhorn.member_sink]
  obtain ⟨-, -, -, e0, e1, e2⟩ := idx_facts t
  funext j
  show Sinkhorn.sink (stack m c) (ix3 (mem t) (j 1) (j 2)) = Sinkhorn.sink (stack m c) (((cfg0.win 1).blk t).view.emb j)
  refine congrArg (Sinkhorn.sink (stack m c)) ?_
  funext a; apply Fin.ext
  match a with
  | ⟨0, _⟩ =>
    show t.val = win0_1.index t (0 : Fin 3) * 1 + 1 * (j 0).val
    have hj : (j 0).val < 1 := (j 0).isLt
    omega
  | ⟨1, _⟩ => show (j 1).val = win0_1.index t (1 : Fin 3) * 1024 + 1 * (j 1).val; omega
  | ⟨2, _⟩ => show (j 2).val = win0_1.index t (2 : Fin 3) * 1024 + 1 * (j 2).val; omega

/-- An index of the result array is in point `t`'s block iff each coordinate is in the block's range on its axis. -/
theorem mem_blk (t : Fin cfg0.N) (i : S32x1024x1024.Idx) :
    i ∈ ((cfg0.win 1).blk t).view.set ↔ ∀ a : Fin 3, win0_1.index t a * S1x1024x1024.size a ≤ (i a).val
      ∧ (i a).val < win0_1.index t a * S1x1024x1024.size a + S1x1024x1024.size a := by
  show i ∈ ((View.whole main_v0).slice (win0_1.rect t)).set ↔ _
  rw [View.set_slice_whole, Rect.mem_set_unit]
  exact Iff.rfl

/-- Index `(b, p, q)` of the result array is in the block of point `b`. -/
theorem cover (i : S32x1024x1024.Idx) :
    ∃ t : Fin cfg0.N, (cfg0.win 1).flush t = true ∧ i ∈ ((cfg0.win 1).blk t).view.set := by
  have hi0 : (i 0).val < 32 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, hi0⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 1024 ≤ (i 1).val ∧ (i 1).val < win0_1.index t (1 : Fin 3) * 1024 + 1024
    omega
  | ⟨2, _⟩ =>
    show win0_1.index t (2 : Fin 3) * 1024 ≤ (i 2).val ∧ (i 2).val < win0_1.index t (2 : Fin 3) * 1024 + 1024
    omega

/-- The result array after the run. -/
theorem final (c : Dev nD) : (dats m 0 c).arrAt 1 cfg0.N = Sinkhorn.sink (stack m c) :=
  (dats m 0 c).arrAt_eq_of_cover 1 (Sinkhorn.sink (stack m c)) (fun t _ => flushed_eq m c t) cover

/-- The kernel's run: the result array at `sink` of the argument, the argument unchanged. -/
theorem run : θ_run defs (onTc (τ := τ) (main (F := Ideal))) ⟨m, fun _ => 0, ρ⟩ fun r => ∀ c : Dev nD,
      r.2.mem ((c : Thread nD τ).loc main_v0) = Sinkhorn.sink (stack m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.Whole

end
-- ==== Proof.RefSide.lean ====
/-
  The reference's result is `sink` of its argument.

  The reference is fifteen groups of host operations on the whole stack `[32, 1024, 1024]`: a sum over axis 1 (or
  axis 2) started from zero, laid back over the summed axis, plus ε, broadcast to the stack's shape, and the stack
  divided by it. Read at an index `(b, p, q)` a group over axis 1 divides the entry by (the sum over `k` of the
  entries `(b, k, q)` + ε): the column step; a group over axis 2 by (the sum of the entries `(b, p, k)` + ε): the row
  step. The zero the host sum starts from is the extended real `0` and drops out.
-/
import proofs.«105325_j77429670412676_1_alg».proof.Proof.Gen.ReferenceIdeal.Run
import proofs.«105325_j77429670412676_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The host's sum over axis 1 of the stack, at `(b, q)`: the initial value plus column `q` of member `b`. -/
theorem hostSum_axis1 (x : FVec Ideal (⟨3, ![32, 1024, 1024]⟩ : Shape) .f32)
    (h' : Shape.ReducesTo (⟨3, ![32, 1024, 1024]⟩ : Shape) [1] ⟨2, ![32, 1024]⟩) (init : EReal) (b : Fin 32) (q : Fin 1024) :
    Ideal.hostReduceAdd h' x init (ix2 b q) = init + ∑ k : Fin 1024, x (ix3 b k q) := by
  have h : Shape.Reduces (⟨3, ![32, 1024, 1024]⟩ : Shape) [1] ⟨2, ![32, 1024]⟩ := by decide
  refine (Ideal.hostReduceAdd_single h' h x init (ix2 b q)).trans ?_
  refine congrArg (init + ·) (Finset.sum_congr rfl fun k _ => congrArg x ?_)
  funext d; apply Fin.ext
  match d with
  | ⟨0, _⟩ => rfl
  | ⟨1, _⟩ => rfl
  | ⟨2, _⟩ => rfl

/-- The host's sum over axis 2 of the stack, at `(b, p)`: the initial value plus row `p` of member `b`. -/
theorem hostSum_axis2 (x : FVec Ideal (⟨3, ![32, 1024, 1024]⟩ : Shape) .f32)
    (h' : Shape.ReducesTo (⟨3, ![32, 1024, 1024]⟩ : Shape) [2] ⟨2, ![32, 1024]⟩) (init : EReal) (b : Fin 32) (p : Fin 1024) :
    Ideal.hostReduceAdd h' x init (ix2 b p) = init + ∑ k : Fin 1024, x (ix3 b p k) := by
  have h : Shape.Reduces (⟨3, ![32, 1024, 1024]⟩ : Shape) [2] ⟨2, ![32, 1024]⟩ := by decide
  refine (Ideal.hostReduceAdd_single h' h x init (ix2 b p)).trans ?_
  refine congrArg (init + ·) (Finset.sum_congr rfl fun k _ => congrArg x ?_)
  funext d; apply Fin.ext
  match d with
  | ⟨0, _⟩ => rfl
  | ⟨1, _⟩ => rfl
  | ⟨2, _⟩ => rfl

/-- One group of host operations over axis 1 is the column step. -/
theorem ref_colStep (x : FVec Ideal S32x1024x1024 .f32) :
    Host.divf x (broadcastInDim S32x1024x1024 ![0, 1, 2] bcast_S32x1x1024_S32x1024x1024_0_1_2
      (addf (broadcastInDim S32x1x1024 ![0, 2] bcast_S32x1024_S32x1x1024_0_2
          (Host.reduceAdd x (constant (F := Ideal) S_ .f32 0x00000000#32) reducesTo_S32x1024x1024_S32x1024_d1 h_S_))
        (broadcastInDim S32x1x1024 ![] bcast_S_S32x1x1024 (constant (F := Ideal) S_ .f32 0x38D1B717#32))))
      = Sinkhorn.colStep x := by
  funext j
  obtain ⟨b, p, q, rfl⟩ : ∃ (b : Fin 32) (p q : Fin 1024), j = ix3 b p q := ⟨j 0, j 1, j 2, eq_ix3 j⟩
  refine Eq.trans ?_ (Sinkhorn.colStep_apply x b p q).symm
  show Ideal.div _ _ = Ideal.div _ _
  refine congrArg (Ideal.div (x (ix3 b p q))) ?_
  refine (broadcastInDim_apply _ _ _ (ix3 b p q) (ix3 b (0 : Fin 1) q) ?_).trans ?_
  · intro a
    match a with
    | ⟨0, _⟩ => rfl
    | ⟨1, _⟩ => rfl
    | ⟨2, _⟩ => rfl
  show _ + _ = _ + _
  refine congrArg₂ (· + ·) ?_ rfl
  refine (broadcastInDim_apply _ _ _ (ix3 b (0 : Fin 1) q) (ix2 b q) ?_).trans ?_
  · intro a
    match a with
    | ⟨0, _⟩ => rfl
    | ⟨1, _⟩ => rfl
  show Ideal.hostReduceAdd _ _ _ (ix2 b q) = _
  refine (hostSum_axis1 x _ _ b q).trans ?_
  show Ideal.ofBits .f32 0x00000000#32 + _ = _
  rw [Ideal.ofBits_zero_f32, zero_add]

/-- One group of host operations over axis 2 is the row step. -/
theorem ref_rowStep (x : FVec Ideal S32x1024x1024 .f32) :
    Host.divf x (broadcastInDim S32x1024x1024 ![0, 1, 2] bcast_S32x1024x1_S32x1024x1024_0_1_2
      (addf (broadcastInDim S32x1024x1 ![0, 1] bcast_S32x1024_S32x1024x1_0_1
          (Host.reduceAdd x (constant (F := Ideal) S_ .f32 0x00000000#32) reducesTo_S32x1024x1024_S32x1024_d2 h_S_))
        (broadcastInDim S32x1024x1 ![] bcast_S_S32x1024x1 (constant (F := Ideal) S_ .f32 0x38D1B717#32))))
      = Sinkhorn.rowStep x := by
  funext j
  obtain ⟨b, p, q, rfl⟩ : ∃ (b : Fin 32) (p q : Fin 1024), j = ix3 b p q := ⟨j 0, j 1, j 2, eq_ix3 j⟩
  refine Eq.trans ?_ (Sinkhorn.rowStep_apply x b p q).symm
  show Ideal.div _ _ = Ideal.div _ _
  refine congrArg (Ideal.div (x (ix3 b p q))) ?_
  refine (broadcastInDim_apply _ _ _ (ix3 b p q) (ix3 b p (0 : Fin 1)) ?_).trans ?_
  · intro a
    match a with
    | ⟨0, _⟩ => rfl
    | ⟨1, _⟩ => rfl
    | ⟨2, _⟩ => rfl
  show _ + _ = _ + _
  refine congrArg₂ (· + ·) ?_ rfl
  refine (broadcastInDim_apply _ _ _ (ix3 b p (0 : Fin 1)) (ix2 b p) ?_).trans ?_
  · intro a
    match a with
    | ⟨0, _⟩ => rfl
    | ⟨1, _⟩ => rfl
  show Ideal.hostReduceAdd _ _ _ (ix2 b p) = _
  refine (hostSum_axis2 x _ _ b p).trans ?_
  show Ideal.ofBits .f32 0x00000000#32 + _ = _
  rw [Ideal.ofBits_zero_f32, zero_add]

/-- The fifteen groups in turn: the reference run's result term is `sink` of the argument. -/
theorem result_eq (V0 : Valuation τ sig (Elt Ideal)) :
    Host.divf (res_main_v83 V0) (broadcastInDim S32x1024x1024 ![0, 1, 2] bcast_S32x1x1024_S32x1024x1024_0_1_2
      (addf (broadcastInDim S32x1x1024 ![0, 2] bcast_S32x1024_S32x1x1024_0_2
          (Host.reduceAdd (res_main_v83 V0) (constant (F := Ideal) S_ .f32 0x00000000#32) reducesTo_S32x1024x1024_S32x1024_d1 h_S_))
        (broadcastInDim S32x1x1024 ![] bcast_S_S32x1x1024 (constant (F := Ideal) S_ .f32 0x38D1B717#32))))
      = Sinkhorn.sink (V0 (Proc.devRef .tc main_arg0) : FVec Ideal S32x1024x1024 .f32) := by
  have e5 : res_main_v5 V0 = Sinkhorn.colStep (V0 (Proc.devRef .tc main_arg0) : FVec Ideal S32x1024x1024 .f32) := ref_colStep _
  have e11 := ref_rowStep (res_main_v5 V0)
  have e17 := ref_colStep (res_main_v11 V0)
  have e23 := ref_rowStep (res_main_v17 V0)
  have e29 := ref_colStep (res_main_v23 V0)
  have e35 := ref_rowStep (res_main_v29 V0)
  have e41 := ref_colStep (res_main_v35 V0)
  have e47 := ref_rowStep (res_main_v41 V0)
  have e53 := ref_colStep (res_main_v47 V0)
  have e59 := ref_rowStep (res_main_v53 V0)
  have e65 := ref_colStep (res_main_v59 V0)
  have e71 := ref_rowStep (res_main_v65 V0)
  have e77 := ref_colStep (res_main_v71 V0)
  have e83 := ref_rowStep (res_main_v77 V0)
  have e89 := ref_colStep (res_main_v83 V0)
  refine e89.trans ?_
  unfold Sinkhorn.sink
  refine congrArg Sinkhorn.colStep ((e83 : res_main_v83 V0 = _).trans ?_)
  refine congrArg Sinkhorn.rowStep ((e77 : res_main_v77 V0 = _).trans ?_)
  refine congrArg Sinkhorn.colStep ((e71 : res_main_v71 V0 = _).trans ?_)
  refine congrArg Sinkhorn.rowStep ((e65 : res_main_v65 V0 = _).trans ?_)
  refine congrArg Sinkhorn.colStep ((e59 : res_main_v59 V0 = _).trans ?_)
  refine congrArg Sinkhorn.rowStep ((e53 : res_main_v53 V0 = _).trans ?_)
  refine congrArg Sinkhorn.colStep ((e47 : res_main_v47 V0 = _).trans ?_)
  refine congrArg Sinkhorn.rowStep ((e41 : res_main_v41 V0 = _).trans ?_)
  refine congrArg Sinkhorn.colStep ((e35 : res_main_v35 V0 = _).trans ?_)
  refine congrArg Sinkhorn.rowStep ((e29 : res_main_v29 V0 = _).trans ?_)
  refine congrArg Sinkhorn.colStep ((e23 : res_main_v23 V0 = _).trans ?_)
  refine congrArg Sinkhorn.rowStep ((e17 : res_main_v17 V0 = _).trans ?_)
  refine congrArg Sinkhorn.colStep ((e11 : res_main_v11 V0 = _).trans ?_)
  exact congrArg Sinkhorn.rowStep e5

end Cert.ReferenceIdeal.RefValue

end
-- ==== Proof.lean ====
/-
  Sinkhorn normalisation of a stack of 32 matrices 1024 × 1024, fifteen alternating steps: the kernel against the
  host reference, equal over the extended reals.

  One step divides every entry by (the sum of its column + ε) or by (the sum of its row + ε); the steps alternate,
  column first, fifteen in all. The reference applies each step to the whole stack with host reductions over axis 1
  or axis 2. The kernel runs one grid point per member of the stack and applies all fifteen steps to that member inside
  its output block, summing over axis 0 or axis 1 of the 1024 × 1024 matrix.

  Both sides are the same function `sink` of the argument stack (Proof/Spec.lean): the same quotient, the same ε word
  and finite sums over the same index sets; a step never mixes two members, so running the steps member by member is
  running them on the stack. No algebraic law beyond `0 + s = s` for the host sum's initial zero is used, and the
  precondition (finite inputs) is never opened.

  The frames of the two kernel programs are the generated ones; the reference's frame is its generated run with the
  result dropped. The idealization rewrote nothing, so `preserves` is `True`.
-/
import proofs.«105325_j77429670412676_1_alg».proof.Defs
import proofs.«105325_j77429670412676_1_alg».proof.Proof.Gen.Kernel
import proofs.«105325_j77429670412676_1_alg».proof.Proof.Gen.Kernel.Skeleton
import proofs.«105325_j77429670412676_1_alg».proof.Proof.Gen.Kernel.Launch
import proofs.«105325_j77429670412676_1_alg».proof.Proof.Gen.Kernel.Points
import proofs.«105325_j77429670412676_1_alg».proof.Proof.Gen.Kernel.Frame
import proofs.«105325_j77429670412676_1_alg».proof.Proof.Gen.KernelIdeal
import proofs.«105325_j77429670412676_1_alg».proof.Proof.Gen.KernelIdeal.Skeleton
import proofs.«105325_j77429670412676_1_alg».proof.Proof.Gen.KernelIdeal.Launch
import proofs.«105325_j77429670412676_1_alg».proof.Proof.Gen.KernelIdeal.Points
import proofs.«105325_j77429670412676_1_alg».proof.Proof.Gen.KernelIdeal.Frame
import proofs.«105325_j77429670412676_1_alg».proof.Proof.Gen.ReferenceIdeal
import proofs.«105325_j77429670412676_1_alg».proof.Proof.Gen.Pre_finite_inputs
import proofs.«105325_j77429670412676_1_alg».proof.Proof.Gen.KernelIdeal.Value
import proofs.«105325_j77429670412676_1_alg».proof.Proof.Gen.ReferenceIdeal.Run
import proofs.«105325_j77429670412676_1_alg».proof.Proof.KernelValue
import proofs.«105325_j77429670412676_1_alg».proof.Proof.RefSide
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `sink` of the argument stack; the arguments agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  exact congrArg Cert.Sinkhorn.sink (hagree c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
